-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1000000 : Shape := ⟨2, ![2, 1000000]⟩
abbrev S1000000x50 : Shape := ⟨2, ![1000000, 50]⟩
abbrev S1000000 : Shape := ⟨1, ![1000000]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000x50 : S_.BroadcastsInDim S1000000x50 (![] : Fin 0 → Fin S1000000x50.rank)
  reducesTo_S1000000x50_S_d0_1 : S1000000x50.ReducesTo [0, 1] S_
  bcast_S_S1000000 : S_.BroadcastsInDim S1000000 (![] : Fin 0 → Fin S1000000.rank)
  reducesTo_S1000000_S_d0 : S1000000.ReducesTo [0] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x1000000 32) (main_arg2 : FVec F S1000000x50 .f32) (main_arg3 : FVec F S1000000 .f32) (main_arg4 : FVec F S50x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000x50 .f32 := Host.absf main_arg2
  let main_cst_0 : FVec F S_ .f32 := constant S_ .f32 0x7F800000#32
  let main_v5 : FVec F S1000000x50 .f32 := broadcastInDim S1000000x50 ![] bcast_S_S1000000x50 main_cst_0
  let main_v6 : IVec S1000000x50 1 := cmpf .olt main_v4 main_v5
  let main_c_1 : IVec S_ 1 := constantI S_ 1 1#1
  let main_v7 : IVec S_ 1 := (fun x v => Host.reduce IntOp.andi x v reducesTo_S1000000x50_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x1000000 : Shape := ⟨2, ![2, 1000000]⟩
abbrev S1000000x50 : Shape := ⟨2, ![1000000, 50]⟩
abbrev S1000000 : Shape := ⟨1, ![1000000]⟩
abbrev S50x128 : Shape := ⟨2, ![50, 128]⟩
abbrev S128 : Shape := ⟨1, ![128]⟩
abbrev S128x128 : Shape := ⟨2, ![128, 128]⟩
abbrev S1x1000000 : Shape := ⟨2, ![1, 1000000]⟩
abbrev S1x128 : Shape := ⟨2, ![1, 128]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S5000x50 : Shape := ⟨2, ![5000, 50]⟩
abbrev S5000x1 : Shape := ⟨2, ![5000, 1]⟩

abbrev nBuf : Space → Nat
  | .hbm => 37
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x50, .f32⟩
  | .hbm, ⟨3, _⟩ => ⟨S1000000, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S1x128, .f32⟩
  | .hbm, ⟨17, _⟩ => ⟨S50000x128, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S1000000x1, .f32⟩
  | .hbm, ⟨28, _⟩ => ⟨S1x128, .f32⟩
  | .hbm, ⟨29, _⟩ => ⟨S1x128, .f32⟩
  | .hbm, ⟨30, _⟩ => ⟨S1000000x128, .f32⟩
  | .hbm, ⟨31, _⟩ => ⟨S_, .f32⟩
  | .hbm, ⟨32, _⟩ => ⟨S50000x128, .f32⟩
  | .hbm, ⟨33, _⟩ => ⟨S1000000x1, .i32⟩
  | .hbm, ⟨34, _⟩ => ⟨S50000x128, .f32⟩
  | .hbm, ⟨35, _⟩ => ⟨S1x128, .f32⟩
  | .hbm, ⟨36, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x50, .f32⟩
  | .local _ .vmem, ⟨7, _⟩ => ⟨S5000x50, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S50x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S5000x50_S5000x50_0_0 : ∀ a, (![0, 0] : Fin 2 → Nat) a + S5000x50.size a ≤ S5000x50.size a
  h_S5000x50 : 0 < S5000x50.numel
  inb_S50x128_S50x128_0_0 : ∀ a, (![0, 0] : Fin 2 → Nat) a + S50x128.size a ≤ S50x128.size a
  h_S50x128 : 0 < S50x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S1000000x1_S1000000x128_1_0_n_n_0_1_1128_wf : GatherDims.WF S50000x128 S1000000x1 S1000000x128 [1] [0] [] [0] [] 1 ![1, 128]
  dot_S5000x50_S50x128_S5000x128_1_0_0_1_n_n_wf : DotDims.WF S5000x50 S50x128 S5000x128 [1] [0] [0] [1] [] []
  scatter_S50000x128_S1000000x1_S1000000x128_1_0_0_1_wf : ScatterDims.WF S50000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S1000000x50.size a
  hwx1_0 : ∀ i : grid1.Coords, EltTy.bits .f32 = 32 ∨ (Rect.block (s := S1000000x50) S5000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .f32 = 32 ∨ (Rect.block (s := S1000000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1000000x128.size a
  hwx1_2 : ∀ i : grid1.Coords, EltTy.bits .f32 = 32 ∨ (Rect.block (s := S1000000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S1000000x128.size a
  hwx1_7 : ∀ i : grid1.Coords, EltTy.bits .f32 = 32 ∨ (Rect.block (s := S1000000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1000000 : Shape := ⟨2, ![2, 1000000]⟩
abbrev S1000000x50 : Shape := ⟨2, ![1000000, 50]⟩
abbrev S1000000 : Shape := ⟨1, ![1000000]⟩
abbrev S50x128 : Shape := ⟨2, ![50, 128]⟩
abbrev S128 : Shape := ⟨1, ![128]⟩
abbrev S128x128 : Shape := ⟨2, ![128, 128]⟩
abbrev S1x1000000 : Shape := ⟨2, ![1, 1000000]⟩
abbrev S1000000x128 : Shape := ⟨2, ![1000000, 128]⟩
abbrev S1x128 : Shape := ⟨2, ![1, 128]⟩
abbrev S_ : Shape := ⟨0, ![]⟩
abbrev S1000000x1 : Shape := ⟨2, ![1000000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x50, .f32⟩
  | .hbm, ⟨3, _⟩ => ⟨S1000000, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S1000000x128, .f32⟩
  | .hbm, ⟨17, _⟩ => ⟨S1x128, .f32⟩
  | .hbm, ⟨18, _⟩ => ⟨S1000000x128, .f32⟩
  | .hbm, ⟨19, _⟩ => ⟨S1000000x128, .f32⟩
  | .hbm, ⟨20, _⟩ => ⟨S1000000x128, .f32⟩
  | .hbm, ⟨21, _⟩ => ⟨S1000000x128, .f32⟩
  | .hbm, ⟨22, _⟩ => ⟨S_, .f32⟩
  | .hbm, ⟨23, _⟩ => ⟨S1000000x128, .f32⟩
  | .hbm, ⟨24, _⟩ => ⟨S1000000x128, .f32⟩
  | .hbm, ⟨25, _⟩ => ⟨S_, .f32⟩
  | .hbm, ⟨26, _⟩ => ⟨S1000000x128, .f32⟩
  | .hbm, ⟨27, _⟩ => ⟨S1000000x128, .f32⟩
  | .hbm, ⟨28, _⟩ => ⟨S1000000x128, .f32⟩
  | .hbm, ⟨29, _⟩ => ⟨S1000000x128, .f32⟩
  | .hbm, ⟨30, _⟩ => ⟨S1x128, .f32⟩
  | .hbm, ⟨31, _⟩ => ⟨S1000000x128, .f32⟩
  | .hbm, ⟨32, _⟩ => ⟨S1000000x128, .f32⟩
  | .hbm, ⟨33, _⟩ => ⟨S1000000x1, .f32⟩
  | .hbm, ⟨34, _⟩ => ⟨S1000000x128, .f32⟩
  | .hbm, ⟨35, _⟩ => ⟨S1000000x128, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x128, .f32⟩
  | .hbm, ⟨45, _⟩ => ⟨S1000000x128, .f32⟩
  | .hbm, ⟨46, _⟩ => ⟨S1x128, .f32⟩
  | .hbm, ⟨47, _⟩ => ⟨S1000000x128, .f32⟩
  | .hbm, ⟨48, _⟩ => ⟨S1000000x128, .f32⟩
  | .hbm, ⟨49, _⟩ => ⟨S1000000x128, .f32⟩
  | .hbm, ⟨50, _⟩ => ⟨S_, .f32⟩
  | .hbm, ⟨51, _⟩ => ⟨S50000x128, .f32⟩
  | .hbm, ⟨52, _⟩ => ⟨S1000000x1, .i32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v35 : Ref sig .tc := ⟨.hbm, 66, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S1000000 : S_.BroadcastsInDim S1000000 (![] : Fin 0 → Fin S1000000.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S1000000x50_S50x128_S1000000x128_1_0_0_1_n_n_wf : DotDims.WF S1000000x50 S50x128 S1000000x128 [1] [0] [0] [1] [] []
  dot_S1000000x128_S128x128_S1000000x128_1_0_0_1_n_n_wf : DotDims.WF S1000000x128 S128x128 S1000000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []

variable [Facts₀]

def dot_S1000000x50_S50x128_S1000000x128_1_0_0_1_n_n : DotDims S1000000x50 S50x128 S1000000x128 where
  lhsContracting := [1]
  rhsContracting := [0]
  lhsNonContracting := [0]
  rhsNonContracting := [1]
  lhsBatch := []
  rhsBatch := []
  wf := dot_S1000000x50_S50x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.Spec.lean ====
/-
  The message-passing layer as one function of its argument arrays, at the extended reals.

  A row-affine map sends a table X of rows to X·W + b, entry (p, q) being the sum over k of X(p, k)·W(k, q), plus b(q).
  The gate v ↦ v·σ(v), with σ(v) = 1 / (1 + e^(-v)), acts entry by entry. An edge's message is its source node's
  projected row times the edge's filter, the filter being a two-layer map of the edge's radial features scaled by the
  edge's cutoff. The layer gathers source rows, forms the messages, adds each message into its destination node's row,
  and applies one more gated row-affine map.

  The one law used between the two programs: a row gather commutes with a row-affine map, because row p of the
  gathered table is row r(p) of the table, and the affine map acts on each row by itself.
-/
import Idealize.ShloMosaic.PureOps.Ideal
import Idealize.ShloMosaic.PureOps.Ideal.Laws
import Idealize.ShloMosaic.Lib.ValueIdx
import proofs.«102468_j28587302322448_1_alg».proof.Proof.LibGS

noncomputable section

namespace Cert.Spec

open Idealize.ShloMosaic Idealize.ShloMosaic.ValueIdx
open scoped BigOperators

/-- The row-affine map: entry (p, q) of X·W + b. -/
def affine {n K m : Nat} (X : FVec Ideal ⟨2, ![n, K]⟩ .f32) (W : FVec Ideal ⟨2, ![K, m]⟩ .f32) (B : FVec Ideal ⟨1, ![m]⟩ .f32) :
    FVec Ideal ⟨2, ![n, m]⟩ .f32 :=
  fun i => (∑ k : Fin K, X (ix2 (⟨(i 0).val, (i 0).isLt⟩ : Fin n) k) * W (ix2 k (⟨(i 1).val, (i 1).isLt⟩ : Fin m)))
    + B (ix1 (⟨(i 1).val, (i 1).isLt⟩ : Fin m))

theorem affine_apply {n K m : Nat} (X : FVec Ideal ⟨2, ![n, K]⟩ .f32) (W : FVec Ideal ⟨2, ![K, m]⟩ .f32) (B : FVec Ideal ⟨1, ![m]⟩ .f32)
    (p : Fin n) (q : Fin m) :
    affine X W B (ix2 p q) = (∑ k : Fin K, X (ix2 p k) * W (ix2 k q)) + B (ix1 q) := rfl

/-- The gate v·σ(v), entry by entry. -/
def silu {ι : Type} (v : ι → EReal) : ι → EReal := fun i => v i * Ideal.logistic (v i)

theorem silu_apply {ι : Type} (v : ι → EReal) (i : ι) : silu v i = v i * Ideal.logistic (v i) := rfl

/-- The single row of a one-row table, as a vector. -/
def rowOf {m : Nat} (b : FVec Ideal ⟨2, ![1, m]⟩ .f32) : FVec Ideal ⟨1, ![m]⟩ .f32 :=
  fun j => b (ix2 (0 : Fin 1) (⟨(j 0).val, (j 0).isLt⟩ : Fin m))

/-- The single column of a one-column table, as a vector. -/
def colOf {n : Nat} (s : FVec Ideal ⟨2, ![n, 1]⟩ .f32) : FVec Ideal ⟨1, ![n]⟩ .f32 :=
  fun j => s (ix2 (⟨(j 0).val, (j 0).isLt⟩ : Fin n) (0 : Fin 1))

/-- An edge's message: the projected source row times the edge's filter, the filter scaled by the edge's cutoff. -/
def edgeMsg {E G C : Nat} (xj : FVec Ideal ⟨2, ![E, C]⟩ .f32) (rbf : FVec Ideal ⟨2, ![E, G]⟩ .f32) (cut : FVec Ideal ⟨1, ![E]⟩ .f32)
    (w1 : FVec Ideal ⟨2, ![G, C]⟩ .f32) (b1 : FVec Ideal ⟨1, ![C]⟩ .f32) (w2 : FVec Ideal ⟨2, ![C, C]⟩ .f32) (b2 : FVec Ideal ⟨1, ![C]⟩ .f32) :
    FVec Ideal ⟨2, ![E, C]⟩ .f32 :=
  fun i => xj i * (affine (silu (affine rbf w1 b1)) w2 b2 i * cut (ix1 (⟨(i 0).val, (i 0).isLt⟩ : Fin E)))

theorem edgeMsg_apply {E G C : Nat} (xj : FVec Ideal ⟨2, ![E, C]⟩ .f32) (rbf : FVec Ideal ⟨2, ![E, G]⟩ .f32) (cut : FVec Ideal ⟨1, ![E]⟩ .f32)
    (w1 : FVec Ideal ⟨2, ![G, C]⟩ .f32) (b1 : FVec Ideal ⟨1, ![C]⟩ .f32) (w2 : FVec Ideal ⟨2, ![C, C]⟩ .f32) (b2 : FVec Ideal ⟨1, ![C]⟩ .f32)
    (p : Fin E) (q : Fin C) :
    edgeMsg xj rbf cut w1 b1 w2 b2 (ix2 p q) = xj (ix2 p q) * (affine (silu (affine rbf w1 b1)) w2 b2 (ix2 p q) * cut (ix1 p)) := rfl

/-- The whole layer: gather source rows and project them, form the messages, add them into destination rows
    (starting from the table z), and apply the gated row-affine map. -/
def model {N E G C w : Nat} (gd : GatherDims ⟨2, ![N, C]⟩ ⟨2, ![E, 1]⟩ ⟨2, ![E, C]⟩) (sd : ScatterDims ⟨2, ![N, C]⟩ ⟨2, ![E, 1]⟩ ⟨2, ![E, C]⟩)
    (z x : FVec Ideal ⟨2, ![N, C]⟩ .f32) (col row : IVec ⟨2, ![E, 1]⟩ w)
    (rbf : FVec Ideal ⟨2, ![E, G]⟩ .f32) (cut : FVec Ideal ⟨1, ![E]⟩ .f32)
    (w1 : FVec Ideal ⟨2, ![G, C]⟩ .f32) (b1 : FVec Ideal ⟨1, ![C]⟩ .f32) (w2 : FVec Ideal ⟨2, ![C, C]⟩ .f32) (b2 : FVec Ideal ⟨1, ![C]⟩ .f32)
    (l1w : FVec Ideal ⟨2, ![C, C]⟩ .f32) (l1b : FVec Ideal ⟨1, ![C]⟩ .f32) (l2w : FVec Ideal ⟨2, ![C, C]⟩ .f32) (l2b : FVec Ideal ⟨1, ![C]⟩ .f32) :
    FVec Ideal ⟨2, ![N, C]⟩ .f32 :=
  silu (affine (Host.scatterAdd (F := Ideal) sd z row (edgeMsg (affine (Host.gather gd x col) l1w l1b) rbf cut w1 b1 w2 b2)) l2w l2b)

/-- A row gather commutes with a row-affine map: gathering rows of X·W + b is the affine map of the gathered rows. -/
theorem gather_affine {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (hN : 0 < N) (X : FVec Ideal ⟨2, ![N, C]⟩ .f32) (W : FVec Ideal ⟨2, ![C, C]⟩ .f32) (B : FVec Ideal ⟨1, ![C]⟩ .f32) (idx : IVec ⟨2, ![n, 1]⟩ w) :
    Host.gather d (affine X W B) idx = affine (Host.gather d X idx) W B := by
  funext i
  obtain ⟨p, q, rfl⟩ : ∃ (p : Fin n) (q : Fin C), i = ix2 p q := ⟨i 0, i 1, eq_ix2 i⟩
  rw [Cert.LibGS.gather_rows d hoff hcoll hob hsim hivd (affine X W B) idx p q hN, affine_apply, affine_apply]
  congr 1
  refine Finset.sum_congr rfl fun k _ => ?_
  rw [Cert.LibGS.gather_rows d hoff hcoll hob hsim hivd X idx p k hN]

end Cert.Spec

end
-- ==== Proof.Region0.lean ====
import proofs.«102468_j28587302322448_1_alg».proof.Proof.Gen.KernelIdeal.Frame
import proofs.«102468_j28587302322448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

/-!
  The first region's output table after all ten grid points, as one function of the tables the region finds: the
  row-affine map X·W + b of the node-feature table. Grid point t holds rows 5000·t … 5000·t + 4999 of X and the whole
  of W and b; it stores those rows of X·W + b; and the ten row blocks cover the table.
-/
namespace Cert.KValue.R0
open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

/-- On the left operand's row axis the product's operand index keeps the output row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand's column axis the operand index is the contraction position. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand's row axis the operand index is the contraction position. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand's column axis the operand index keeps the output column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, entry (p, q): the sum over k of a(p, k)·w(k, q). -/
theorem matmul_zero_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The kernel's payload, entry (p, q): row p of the block times column q of the weights, plus entry q of the bias row. -/
theorem pay_at (x : Vec Ideal S5000x128 .f32) (w : Vec Ideal S128x128 .f32) (b : Vec Ideal S1x128 .f32)
    (p : Fin 5000) (q : Fin 128) :
    k0_pay1 (F := Ideal) x w b (ix2 p q)
      = (∑ k : Fin 128, x (ix2 p k) * w (ix2 k q)) + b (ix2 (0 : Fin 1) q) := by
  have hm := matmul_zero_at (truncf .bf16 x Facts₀.bitsLt_bf16_f32 : FVec Ideal S5000x128 .bf16)
    (truncf .bf16 w Facts₀.bitsLt_bf16_f32 : FVec Ideal S128x128 .bf16) p q
  have hb : broadcastTo S5000x128 (shapeCast S1x128 b Facts₀.shapeCasts_S1x128_S1x128) Facts₀.broadcasts_S1x128_S5000x128 (ix2 p q)
      = b (ix2 (0 : Fin 1) q) := by
    rw [shapeCast_self]
    exact broadcastTo_1b_ab_apply b Facts₀.broadcasts_S1x128_S5000x128 p q
  unfold k0_pay1
  exact congrArg₂ (· + ·) hm hb

/-- The offsets of a whole-block rectangle, spelt as the zero function. -/
theorem hz : (![0, 0] : Fin 2 → Nat) = fun _ => 0 := funext fun a => by fin_cases a <;> rfl

/-- The block index maps over the grid: the node-feature window and the output window sit at row block t, column
    block 0; the weight window and the bias-row window sit at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the node-feature block at grid point t is entry (5000·t + p, k) of the node-feature table. -/
theorem xblk_at (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : FVec Ideal S50000x128 .f32) (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at every grid point is the weight table. -/
theorem wblk_at (c : Dev nD) (t : Fin cfg0.N) (k : Fin 128) (q : Fin 128) :
    (iblk0 V c 1 t : Vec Ideal S128x128 .f32) (ix2 k q) = (V c main_arg8 : FVec Ideal S128x128 .f32) (ix2 k q) := by
  obtain ⟨-, -, e2, e3, -⟩ := idx_facts t
  show V c main_arg8 (((cfg0.win 1).blk t).view.emb (ix2 k q)) = V c main_arg8 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias-row block at every grid point is the bias row. -/
theorem bblk_at (c : Dev nD) (t : Fin cfg0.N) (q : Fin 128) :
    (iblk0 V c 2 t : Vec Ideal S1x128 .f32) (ix2 (0 : Fin 1) q) = (V c main_v4 : FVec Ideal S1x128 .f32) (ix2 (0 : Fin 1) q) := by
  obtain ⟨-, -, -, -, e4, e5, -⟩ := idx_facts t
  show V c main_v4 (((cfg0.win 2).blk t).view.emb (ix2 (0 : Fin 1) q)) = V c main_v4 (ix2 (0 : Fin 1) q)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- What grid point t writes back is block t of the row-affine map of the tables the region finds: rows
    5000·t … 5000·t + 4999 of X·W + b. -/
theorem flushed_eq (c : Dev nD) (t : Fin cfg0.N) :
    (dat0 (F := Ideal) V c).flushed 3 t
      = ((cfg0.win 3).blk t).view.read (Elt Ideal)
          (Cert.Spec.affine (V c main_arg0) (V c main_arg8) (Cert.Spec.rowOf (V c main_v4))) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have hN : cfg0.N = 10 := N_0
  have ht : t.val < cfg0.N := t.isLt
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k0_pay1 (F := Ideal) (iblk0 V c 0 t) (iblk0 V c 1 t) (iblk0 V c 2 t) (ix2 p q)
    = Cert.Spec.affine (V c main_arg0) (V c main_arg8) (Cert.Spec.rowOf (V c main_v4)) (((cfg0.win 3).blk t).view.emb (ix2 p q))
  have hemb : ((cfg0.win 3).blk t).view.emb (ix2 p q) = ix2 (⟨t.val * 5000 + p.val, hr⟩ : Fin 50000) q :=
    funext fun a => Fin.ext (by
      match a with
      | ⟨0, _⟩ => show win0_3.index t (0 : Fin 2) * 5000 + 1 * p.val = t.val * 5000 + p.val; omega
      | ⟨1, _⟩ => show win0_3.index t (1 : Fin 2) * 128 + 1 * q.val = q.val; omega)
  rw [hemb, Cert.Spec.affine_apply]
  refine (pay_at (iblk0 V c 0 t) (iblk0 V c 1 t) (iblk0 V c 2 t) p q).trans ?_
  exact congrArg₂ (· + ·)
    (Finset.sum_congr rfl fun k _ => congrArg₂ (· * ·) (xblk_at V c t p k ⟨t.val * 5000 + p.val, hr⟩ rfl) (wblk_at V c t k q))
    (bblk_at V c t q)

/-- An index of the output table is in grid point t's block iff each coordinate lies in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- The ten row blocks fill the output table: row r lies in the block of grid point ⌊r / 5000⌋, and every point writes back. -/
theorem cover (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's output table after all ten grid points is the row-affine map X·W + b of the node-feature table X,
    the weight table W and the bias row b as the region finds them. -/
theorem final0 (c : Dev nD) :
    (dat0 (F := Ideal) V c).arrAt 3 cfg0.N
      = Cert.Spec.affine (V c main_arg0) (V c main_arg8) (Cert.Spec.rowOf (V c main_v4)) :=
  (dat0 (F := Ideal) V c).arrAt_eq_of_cover 3 _ (fun t _ => flushed_eq V c t) (fun i => cover i)

end Cert.KValue.R0

end
-- ==== Proof.Region1Pay.lean ====
/-
  The edge kernel's stored value at an index (p, q) of a block of 5000 edges: the block's projected source row entry
  times the filter entry, the filter being the second affine layer of the gated first affine layer of the block's
  radial features, times the edge's cutoff. At the extended reals the casts to the narrow format are the identity and
  a matrix product into the zero accumulator is the exact sum over the contraction index, so the stored block is the
  edge message of the block's own arrays.
-/
import proofs.«102468_j28587302322448_1_alg».proof.Proof.Gen.KernelIdeal.Skeleton
import proofs.«102468_j28587302322448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KValue.R1
open Cert.KernelIdeal Cert.KernelIdeal.Gen Idealize.ShloMosaic Idealize.ShloMosaic.TcCoe Idealize.SL.Sem Idealize.ShloMosaic.ValueIdx
open scoped BigOperators

/-! ## The first product: 5000×50 times 50×128 -/

/-- The left operand's row coordinate is the output's row coordinate. -/
theorem lhs_a_0 (i : S5000x128.Idx) (q : dot_S5000x50_S50x128_S5000x128_1_0_0_1_n_n.contr.Idx) :
    (dot_S5000x50_S50x128_S5000x128_1_0_0_1_n_n.lhsIdx i q 0).val = (i 0).val := by
  unfold DotDims.lhsIdx
  rw [dif_neg (show ¬(0 : Fin S5000x50.rank) ∈ dot_S5000x50_S50x128_S5000x128_1_0_0_1_n_n.lhsBatch by decide), dif_pos (show (0 : Fin S5000x50.rank) ∈ dot_S5000x50_S50x128_S5000x128_1_0_0_1_n_n.lhsNonContracting by decide)]
  rfl
/-- The left operand's column coordinate is the contraction index. -/
theorem lhs_a_1 (i : S5000x128.Idx) (q : dot_S5000x50_S50x128_S5000x128_1_0_0_1_n_n.contr.Idx) :
    (dot_S5000x50_S50x128_S5000x128_1_0_0_1_n_n.lhsIdx i q 1).val = (q ⟨0, by decide⟩).val :=
  dot_S5000x50_S50x128_S5000x128_1_0_0_1_n_n.lhsIdx_val_of_single rfl i q
/-- The right operand's row coordinate is the contraction index. -/
theorem rhs_a_0 (i : S5000x128.Idx) (q : dot_S5000x50_S50x128_S5000x128_1_0_0_1_n_n.contr.Idx) :
    (dot_S5000x50_S50x128_S5000x128_1_0_0_1_n_n.rhsIdx i q 0).val = (q ⟨0, by decide⟩).val :=
  dot_S5000x50_S50x128_S5000x128_1_0_0_1_n_n.rhsIdx_val_of_single rfl i q
/-- The right operand's column coordinate is the output's column coordinate. -/
theorem rhs_a_1 (i : S5000x128.Idx) (q : dot_S5000x50_S50x128_S5000x128_1_0_0_1_n_n.contr.Idx) :
    (dot_S5000x50_S50x128_S5000x128_1_0_0_1_n_n.rhsIdx i q 1).val = (i 1).val := by
  unfold DotDims.rhsIdx
  rw [dif_neg (show ¬(1 : Fin S50x128.rank) ∈ dot_S5000x50_S50x128_S5000x128_1_0_0_1_n_n.rhsBatch by decide), dif_pos (show (1 : Fin S50x128.rank) ∈ dot_S5000x50_S50x128_S5000x128_1_0_0_1_n_n.rhsNonContracting by decide)]
  rfl

/-- Entry (p, q) of the product of a 5000×50 block and a 50×128 matrix into the zero accumulator is the sum over k of
    the block's (p, k) times the matrix's (k, q). -/
theorem matmul_a_apply {φ₁ φ₂ : FTy} (a : FVec Ideal S5000x50 φ₁) (b : FVec Ideal S50x128 φ₂) (p : Fin 5000) (q : Fin 128) :
    matmul dot_S5000x50_S50x128_S5000x128_1_0_0_1_n_n none a b (constant (F := Ideal) S5000x128 .f32 0x00000000#32) (ix2 p q)
      = ∑ k : Fin 50, a (ix2 p k) * b (ix2 k q) := by
  simp only [matmul]
  rw [Ideal.matmul_constant_zero_apply, ← Equiv.sum_comp (ValueIdx.contrEquiv1 dot_S5000x50_S50x128_S5000x128_1_0_0_1_n_n 50 rfl rfl).symm]
  refine Finset.sum_congr rfl fun k _ => ?_
  have hk := ValueIdx.contrEquiv1_symm_val dot_S5000x50_S50x128_S5000x128_1_0_0_1_n_n 50 rfl rfl k
  have el : dot_S5000x50_S50x128_S5000x128_1_0_0_1_n_n.lhsIdx (ix2 p q) ((ValueIdx.contrEquiv1 dot_S5000x50_S50x128_S5000x128_1_0_0_1_n_n 50 rfl rfl).symm k) = ix2 p k := funext fun ax => Fin.ext (by
    match ax with
    | ⟨0, _⟩ => exact lhs_a_0 _ _
    | ⟨1, _⟩ => exact (lhs_a_1 _ _).trans hk)
  have er : dot_S5000x50_S50x128_S5000x128_1_0_0_1_n_n.rhsIdx (ix2 p q) ((ValueIdx.contrEquiv1 dot_S5000x50_S50x128_S5000x128_1_0_0_1_n_n 50 rfl rfl).symm k) = ix2 k q := funext fun ax => Fin.ext (by
    match ax with
    | ⟨0, _⟩ => exact (rhs_a_0 _ _).trans hk
    | ⟨1, _⟩ => exact rhs_a_1 _ _)
  rw [el, er]

/-! ## The second product: 5000×128 times 128×128 -/

/-- The left operand's row coordinate is the output's row coordinate. -/
theorem lhs_b_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_b_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_b_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column coordinate. -/
theorem rhs_b_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product of a 5000×128 block and a 128×128 matrix into the zero accumulator is the sum over k of
    the block's (p, k) times the matrix's (k, q). -/
theorem matmul_b_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_b_0 _ _
    | ⟨1, _⟩ => exact (lhs_b_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_b_0 _ _).trans hk
    | ⟨1, _⟩ => exact rhs_b_1 _ _)
  rw [el, er]

/-! ## The column broadcast -/

/-- A 5000×1 column broadcast to 5000×128 reads, at (p, q), the column's entry p. -/
theorem broadcastTo_col_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ => rfl

/-! ## The two affine layers and the gate -/

/-- The first layer's pre-activation block is the row-affine map of the radial block. -/
theorem layer_a_eq (x0 : Vec Ideal S5000x50 .f32) (w1 : Vec Ideal S50x128 .f32) (b1 : Vec Ideal S1x128 .f32)
    (h0 : FTy.bits .bf16 < FTy.bits .f32) (hs : S1x128.ShapeCasts S1x128) (hb : S1x128.Broadcasts S5000x128) :
    addf (matmul dot_S5000x50_S50x128_S5000x128_1_0_0_1_n_n none (truncf .bf16 x0 h0) (truncf .bf16 w1 h0) (constant (F := Ideal) S5000x128 .f32 0x00000000#32))
        (broadcastTo S5000x128 (shapeCast S1x128 b1 hs) hb)
      = Cert.Spec.affine x0 w1 (Cert.Spec.rowOf b1) := by
  funext j
  obtain ⟨p, q, rfl⟩ : ∃ (p : Fin 5000) (q : Fin 128), j = ix2 p q := ⟨j 0, j 1, eq_ix2 j⟩
  rw [addf_apply, matmul_a_apply, shapeCast_self, broadcastTo_1b_ab_apply, Cert.Spec.affine_apply]
  rfl

/-- The second layer's block is the row-affine map of the gated block. -/
theorem layer_b_eq (g : FVec Ideal S5000x128 .f32) (w2 : Vec Ideal S128x128 .f32) (b2 : Vec Ideal S1x128 .f32)
    (h0 : FTy.bits .bf16 < FTy.bits .f32) (hs : S1x128.ShapeCasts S1x128) (hb : S1x128.Broadcasts S5000x128) :
    addf (matmul dot_S5000x128_S128x128_S5000x128_1_0_0_1_n_n none (truncf .bf16 g h0) (truncf .bf16 w2 h0) (constant (F := Ideal) S5000x128 .f32 0x00000000#32))
        (broadcastTo S5000x128 (shapeCast S1x128 b2 hs) hb)
      = Cert.Spec.affine g w2 (Cert.Spec.rowOf b2) := by
  funext j
  obtain ⟨p, q, rfl⟩ : ∃ (p : Fin 5000) (q : Fin 128), j = ix2 p q := ⟨j 0, j 1, eq_ix2 j⟩
  rw [addf_apply, matmul_b_apply, shapeCast_self, broadcastTo_1b_ab_apply, Cert.Spec.affine_apply]
  rfl

/-- The gate: a block times its logistic, entry by entry. -/
theorem gate_eq (v : FVec Ideal S5000x128 .f32) : mulf v (logistic v) = Cert.Spec.silu v := rfl

/-! ## The stored block -/

/-- The block the kernel stores is the edge message of the block's own arrays: at (p, q), the projected source row's
    entry times the filter's entry times the edge's cutoff. -/
theorem pay_eq (x0 : Vec Ideal S5000x50 .f32) (w1 : Vec Ideal S50x128 .f32) (b1 : Vec Ideal S1x128 .f32) (w2 : Vec Ideal S128x128 .f32)
    (b2 : Vec Ideal S1x128 .f32) (cut : Vec Ideal S5000x1 .f32) (y : Vec Ideal S5000x128 .f32) (p : Fin 5000) (q : Fin 128) :
    k1_pay1 (F := Ideal) x0 w1 b1 w2 b2 cut y (ix2 p q)
      = Cert.Spec.edgeMsg y x0 (Cert.Spec.colOf cut) w1 (Cert.Spec.rowOf b1) w2 (Cert.Spec.rowOf b2) (ix2 p q) := by
  rw [Cert.Spec.edgeMsg_apply]
  unfold k1_pay1
  rw [layer_a_eq, gate_eq, layer_b_eq, mulf_apply, mulf_apply, shapeCast_self, shapeCast_self, broadcastTo_col_apply]
  rfl

/-! ## An edge's message depends on the edge's own rows only -/

/-- If row p of one set of edge tables (source rows, radial features, cutoff) is row r of another set, the message of
    edge p in the first set is the message of edge r in the second: the filter of an edge reads only the edge's own
    radial row and cutoff, and the weights are shared. -/
theorem edgeMsg_row {n E G C : Nat} (xj' : FVec Ideal ⟨2, ![n, C]⟩ .f32) (rbf' : FVec Ideal ⟨2, ![n, G]⟩ .f32) (cut' : FVec Ideal ⟨1, ![n]⟩ .f32)
    (xj : FVec Ideal ⟨2, ![E, C]⟩ .f32) (rbf : FVec Ideal ⟨2, ![E, G]⟩ .f32) (cut : FVec Ideal ⟨1, ![E]⟩ .f32)
    (w1 : FVec Ideal ⟨2, ![G, C]⟩ .f32) (b1 : FVec Ideal ⟨1, ![C]⟩ .f32) (w2 : FVec Ideal ⟨2, ![C, C]⟩ .f32) (b2 : FVec Ideal ⟨1, ![C]⟩ .f32)
    (p : Fin n) (r : Fin E) (hx : ∀ q : Fin C, xj' (ix2 p q) = xj (ix2 r q)) (hr : ∀ k : Fin G, rbf' (ix2 p k) = rbf (ix2 r k))
    (hc : cut' (ix1 p) = cut (ix1 r)) (q : Fin C) :
    Cert.Spec.edgeMsg xj' rbf' cut' w1 b1 w2 b2 (ix2 p q) = Cert.Spec.edgeMsg xj rbf cut w1 b1 w2 b2 (ix2 r q) := by
  rw [Cert.Spec.edgeMsg_apply, Cert.Spec.edgeMsg_apply, hx q, hc, Cert.Spec.affine_apply, Cert.Spec.affine_apply]
  have hs : ∀ k : Fin C, Cert.Spec.silu (Cert.Spec.affine rbf' w1 b1) (ix2 p k) = Cert.Spec.silu (Cert.Spec.affine rbf w1 b1) (ix2 r k) := fun k => by
    rw [Cert.Spec.silu_apply, Cert.Spec.silu_apply, Cert.Spec.affine_apply, Cert.Spec.affine_apply]
    rw [Finset.sum_congr rfl fun j _ => by rw [hr j]]
  rw [Finset.sum_congr rfl fun k _ => by rw [hs k]]

end Cert.KValue.R1

end
-- ==== Proof.Region1.lean ====
/-
  The edge region's output table after all 200 grid points, as one function of the tables the region finds: the edge
  messages. Grid point t holds rows 5000·t … 5000·t + 4999 of the radial, cutoff and projected-source tables and the
  whole weight and bias tables; it stores the edge messages of its own rows; an edge's message reads only the edge's own
  rows; and the 200 row blocks cover the million rows.
-/
import proofs.«102468_j28587302322448_1_alg».proof.Proof.Gen.KernelIdeal.Frame
import proofs.«102468_j28587302322448_1_alg».proof.Proof.Spec
import proofs.«102468_j28587302322448_1_alg».proof.Proof.Region1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KValue.R1
open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

/-- The offsets of a whole-block rectangle, as the zero function. -/
theorem hz : (![0, 0] : Fin 2 → Nat) = fun _ => 0 := funext fun a => by fin_cases a <;> rfl

/-- The block index maps over the grid: the radial, cutoff, projected-source and output windows sit at row block t,
    column block 0; the two weight windows and the two bias-row windows sit at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each window's block, read off its table -/

/-- Entry (p, k) of the radial block at grid point t is entry (5000·t + p, k) of the radial table. -/
theorem rbf_blk (c : Dev nD) (t : Fin cfg1.N) (p : Fin 5000) (k : Fin 50) (r : Fin 1000000) (hr : r.val = t.val * 5000 + p.val) :
    (iblk1 V c 0 t : Vec Ideal S5000x50 .f32) (ix2 p k) = (V c main_arg2 : FVec Ideal S1000000x50 .f32) (ix2 r k) := by
  obtain ⟨e0, e1, -⟩ := idx_facts t
  show V c main_arg2 (((cfg1.win 0).blk t).view.emb (ix2 p k)) = V c main_arg2 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 50 + 1 * k.val = k.val; omega

/-- Entry (p, 0) of the cutoff block at grid point t is entry (5000·t + p, 0) of the cutoff column. -/
theorem cut_blk (c : Dev nD) (t : Fin cfg1.N) (p : Fin 5000) (r : Fin 1000000) (hr : r.val = t.val * 5000 + p.val) :
    (iblk1 V c 1 t : Vec Ideal S5000x1 .f32) (ix2 p (0 : Fin 1)) = (V c main_v13 : FVec Ideal S1000000x1 .f32) (ix2 r (0 : Fin 1)) := by
  obtain ⟨-, -, e2, e3, -⟩ := idx_facts t
  show V c main_v13 (((cfg1.win 1).blk t).view.emb (ix2 p (0 : Fin 1))) = V c main_v13 (ix2 r (0 : Fin 1))
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * (0 : Fin 1).val = (0 : Fin 1).val; omega

/-- Entry (p, q) of the projected-source block at grid point t is entry (5000·t + p, q) of the projected-source table. -/
theorem src_blk (c : Dev nD) (t : Fin cfg1.N) (p : Fin 5000) (q : Fin 128) (r : Fin 1000000) (hr : r.val = t.val * 5000 + p.val) :
    (iblk1 V c 2 t : Vec Ideal S5000x128 .f32) (ix2 p q) = (V c main_v12 : FVec Ideal S1000000x128 .f32) (ix2 r q) := by
  obtain ⟨-, -, -, -, e4, e5, -⟩ := idx_facts t
  show V c main_v12 (((cfg1.win 2).blk t).view.emb (ix2 p q)) = V c main_v12 (ix2 r q)
  refine congrArg _ (funext fun a => Fin.ext ?_)
  match a with
  | ⟨0, _⟩ => show win1_2.index t (0 : Fin 2) * 5000 + 1 * p.val = r.val; omega
  | ⟨1, _⟩ => show win1_2.index t (1 : Fin 2) * 128 + 1 * q.val = q.val; omega

/-- The first weight block at every grid point is the first weight table. -/
theorem w1_blk (c : Dev nD) (t : Fin cfg1.N) :
    (iblk1 V c 3 t : Vec Ideal S50x128 .f32) = (V c main_arg4 : FVec Ideal S50x128 .f32) := by
  obtain ⟨-, -, -, -, -, -, e6, e7, -⟩ := idx_facts t
  funext y
  show V c main_arg4 (((cfg1.win 3).blk t).view.emb y) = V c main_arg4 y
  refine congrArg _ (funext fun a => Fin.ext ?_)
  match a with
  | ⟨0, _⟩ => show win1_3.index t (0 : Fin 2) * 50 + 1 * (y 0).val = (y 0).val; omega
  | ⟨1, _⟩ => show win1_3.index t (1 : Fin 2) * 128 + 1 * (y 1).val = (y 1).val; omega

/-- The first bias-row block at every grid point is the first bias row. -/
theorem b1_blk (c : Dev nD) (t : Fin cfg1.N) :
    (iblk1 V c 4 t : Vec Ideal S1x128 .f32) = (V c main_v14 : FVec Ideal S1x128 .f32) := by
  obtain ⟨-, -, -, -, -, -, -, -, e8, e9, -⟩ := idx_facts t
  funext y
  show V c main_v14 (((cfg1.win 4).blk t).view.emb y) = V c main_v14 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second weight block at every grid point is the second weight table. -/
theorem w2_blk (c : Dev nD) (t : Fin cfg1.N) :
    (iblk1 V c 5 t : Vec Ideal S128x128 .f32) = (V c main_arg6 : FVec Ideal S128x128 .f32) := by
  obtain ⟨-, -, -, -, -, -, -, -, -, -, e10, e11, -⟩ := idx_facts t
  funext y
  show V c main_arg6 (((cfg1.win 5).blk t).view.emb y) = V c main_arg6 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second bias-row block at every grid point is the second bias row. -/
theorem b2_blk (c : Dev nD) (t : Fin cfg1.N) :
    (iblk1 V c 6 t : Vec Ideal S1x128 .f32) = (V c main_v15 : FVec Ideal S1x128 .f32) := by
  obtain ⟨-, -, -, -, -, -, -, -, -, -, -, -, e12, e13, -⟩ := idx_facts t
  funext y
  show V c main_v15 (((cfg1.win 6).blk t).view.emb y) = V c main_v15 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## What a grid point stores -/

/-- Entry (p, q) of what grid point t stores is the message of edge 5000·t + p at channel q, formed from the tables
    the region finds. -/
theorem point_entry (c : Dev nD) (t : Fin cfg1.N) (p : Fin 5000) (q : Fin 128) (r : Fin 1000000) (hr : r.val = t.val * 5000 + p.val) :
    k1_pay1 (F := Ideal) (iblk1 V c 0 t) (iblk1 V c 3 t) (iblk1 V c 4 t) (iblk1 V c 5 t) (iblk1 V c 6 t) (iblk1 V c 1 t) (iblk1 V c 2 t) (ix2 p q)
      = Cert.Spec.edgeMsg (V c main_v12) (V c main_arg2) (Cert.Spec.colOf (V c main_v13)) (V c main_arg4) (Cert.Spec.rowOf (V c main_v14))
          (V c main_arg6) (Cert.Spec.rowOf (V c main_v15)) (ix2 r q) := by
  refine (pay_eq (iblk1 V c 0 t) (iblk1 V c 3 t) (iblk1 V c 4 t) (iblk1 V c 5 t) (iblk1 V c 6 t) (iblk1 V c 1 t) (iblk1 V c 2 t) p q).trans ?_
  rw [w1_blk V c t, b1_blk V c t, w2_blk V c t, b2_blk V c t]
  exact edgeMsg_row (iblk1 V c 2 t) (iblk1 V c 0 t) (Cert.Spec.colOf (iblk1 V c 1 t)) (V c main_v12) (V c main_arg2) (Cert.Spec.colOf (V c main_v13))
    (V c main_arg4) (Cert.Spec.rowOf (V c main_v14)) (V c main_arg6) (Cert.Spec.rowOf (V c main_v15)) p r
    (fun q' => src_blk V c t p q' r hr) (fun k => rbf_blk V c t p k r hr) (cut_blk V c t p r hr) q

/-- What grid point t writes back is block t of the edge-message table: rows 5000·t … 5000·t + 4999. -/
theorem flushed_eq (c : Dev nD) (t : Fin cfg1.N) :
    (dat1 (F := Ideal) V c).flushed 7 t
      = ((cfg1.win 7).blk t).view.read (Elt Ideal)
          (Cert.Spec.edgeMsg (V c main_v12) (V c main_arg2) (Cert.Spec.colOf (V c main_v13)) (V c main_arg4) (Cert.Spec.rowOf (V c main_v14))
            (V c main_arg6) (Cert.Spec.rowOf (V c main_v15))) := by
  show (cfg1.win 7).cut (grid1.coords t) ((dat1 (F := Ideal) V c).after 7 t) = _
  rw [after1_7]
  unfold out1_7
  rw [View.canon_unit_zero hz]
  simp only [View.ld_unit_zero (S := S5000x50) hz, View.ld_unit_zero (S := S50x128) hz, View.ld_unit_zero (S := S1x128) hz,
    View.ld_unit_zero (S := S128x128) hz, View.ld_unit_zero (S := S5000x1) hz, View.ld_unit_zero (S := S5000x128) hz]
  obtain ⟨-, -, -, -, -, -, -, -, -, -, -, -, -, -, e14, e15⟩ := idx_facts t
  have ht : t.val < grid1.N := t.isLt
  rw [N_1] at ht
  funext j
  obtain ⟨p, q, rfl⟩ : ∃ (p : Fin 5000) (q : Fin 128), j = ix2 p q := ⟨j 0, j 1, eq_ix2 j⟩
  have hp : p.val < 5000 := p.isLt
  have hr : t.val * 5000 + p.val < 1000000 := by omega
  show k1_pay1 (F := Ideal) (iblk1 V c 0 t) (iblk1 V c 3 t) (iblk1 V c 4 t) (iblk1 V c 5 t) (iblk1 V c 6 t) (iblk1 V c 1 t) (iblk1 V c 2 t) (ix2 p q)
    = Cert.Spec.edgeMsg (V c main_v12) (V c main_arg2) (Cert.Spec.colOf (V c main_v13)) (V c main_arg4) (Cert.Spec.rowOf (V c main_v14))
        (V c main_arg6) (Cert.Spec.rowOf (V c main_v15)) (((cfg1.win 7).blk t).view.emb (ix2 p q))
  have hemb : ((cfg1.win 7).blk t).view.emb (ix2 p q) = ix2 (⟨t.val * 5000 + p.val, hr⟩ : Fin 1000000) q :=
    funext fun a => Fin.ext (by
      match a with
      | ⟨0, _⟩ => show win1_7.index t (0 : Fin 2) * 5000 + 1 * p.val = t.val * 5000 + p.val; omega
      | ⟨1, _⟩ => show win1_7.index t (1 : Fin 2) * 128 + 1 * q.val = q.val; omega)
  rw [hemb]
  exact point_entry V c t p q ⟨t.val * 5000 + p.val, hr⟩ rfl

/-! ## The blocks cover the table -/

/-- An entry of the output table is in grid point t's block iff each coordinate is in the block's range on its axis. -/
theorem mem_blk (t : Fin cfg1.N) (i : S1000000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v16).slice (win1_7.rect t)).set ↔ _
  rw [View.set_slice_whole, Rect.mem_set_unit]
  exact Iff.rfl

/-- Every entry of the output table lies in some grid point's block: row r in the block of point r / 5000. -/
theorem covered (i : S1000000x128.Idx) : ∃ t : Fin cfg1.N, (cfg1.win 7).flush t = true ∧ i ∈ ((cfg1.win 7).blk t).view.set := by
  have hi0 : (i 0).val < 1000000 := (i 0).isLt
  have hi1 : (i 1).val < 128 := (i 1).isLt
  have hN : grid1.N = 200 := N_1
  have hlt : (i 0).val / 5000 < cfg1.N := by show (i 0).val / 5000 < grid1.N; omega
  refine ⟨⟨(i 0).val / 5000, hlt⟩, flush1_7 _, ?_⟩
  rw [mem_blk]
  obtain ⟨-, -, -, -, -, -, -, -, -, -, -, -, -, -, e14, e15⟩ := idx_facts ⟨(i 0).val / 5000, hlt⟩
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    rw [e14]; show (i 0).val / 5000 * 5000 ≤ (i 0).val ∧ (i 0).val < (i 0).val / 5000 * 5000 + 5000; omega
  | ⟨1, _⟩ =>
    show win1_7.index ⟨(i 0).val / 5000, hlt⟩ (1 : Fin 2) * 128 ≤ (i 1).val ∧ (i 1).val < win1_7.index ⟨(i 0).val / 5000, hlt⟩ (1 : Fin 2) * 128 + 128
    rw [e15]; omega

/-! ## The table after the region -/

/-- After all 200 grid points the output table holds the edge messages formed from the tables the region finds: each
    point writes back its own 5000 rows of that table, and the points' row blocks cover every row. -/
theorem final1 (c : Dev nD) :
    (dat1 (F := Ideal) V c).arrAt 7 cfg1.N
      = Cert.Spec.edgeMsg (V c main_v12) (V c main_arg2) (Cert.Spec.colOf (V c main_v13)) (V c main_arg4) (Cert.Spec.rowOf (V c main_v14))
          (V c main_arg6) (Cert.Spec.rowOf (V c main_v15)) :=
  (dat1 (F := Ideal) V c).arrAt_eq_of_cover 7 _ (fun t _ => flushed_eq V c t) covered

end Cert.KValue.R1

end
-- ==== Proof.Region2.lean ====
import proofs.«102468_j28587302322448_1_alg».proof.Proof.Gen.KernelIdeal.Frame
import proofs.«102468_j28587302322448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

/-!
  The last region's output table after all ten grid points, as one function of the tables the region finds: the gate
  v·σ(v) of the row-affine map A·W + b of the aggregated table. Grid point t holds rows 5000·t … 5000·t + 4999 of A and
  the whole of W and b; it stores those rows of the gated map; and the ten row blocks cover the table.
-/
namespace Cert.KValue.R2
open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

/-! ## The contraction of a row block with the weights, at an entry -/

/-- The left operand's index at output index i and contraction index r has i's row on axis 0. -/
theorem lhs_axis0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's index has the contraction coordinate on axis 1. -/
theorem lhs_axis1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- The right operand's index has the contraction coordinate on axis 0. -/
theorem rhs_axis0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- The right operand's index has i's column on axis 1. -/
theorem rhs_axis1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000×128 block and a 128×128 table accumulated into zero: entry (p, q) is the sum over k of a(p, k)·b(k, q). -/
theorem matmul_entry (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The payload at an entry -/

/-- The region's payload at entry (p, q): with s the sum over k of x0(p, k)·x1(k, q) plus the bias row's entry x2(0, q), it is s·σ(s). -/
theorem payload_entry (x0 : Vec Ideal S5000x128 .f32) (x1 : Vec Ideal S128x128 .f32) (x2 : Vec Ideal S1x128 .f32) (p : Fin 5000) (q : Fin 128) :
    k2_pay1 (F := Ideal) x0 x1 x2 (ix2 p q)
      = ((∑ k : Fin 128, x0 (ix2 p k) * x1 (ix2 k q)) + x2 (ix2 (0 : Fin 1) q))
        * Ideal.logistic ((∑ k : Fin 128, x0 (ix2 p k) * x1 (ix2 k q)) + x2 (ix2 (0 : Fin 1) q)) := by
  unfold k2_pay1
  have hs : addf (matmul (F := Ideal) dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32))
        (broadcastTo S5000x128 (shapeCast S1x128 x2 shapeCasts_S1x128_S1x128) broadcasts_S1x128_S5000x128) (ix2 p q)
      = (∑ k : Fin 128, x0 (ix2 p k) * x1 (ix2 k q)) + x2 (ix2 (0 : Fin 1) q) := by
    rw [addf_apply, matmul_entry, shapeCast_self, shapeCast_self, broadcastTo_1b_ab_apply]
    rfl
  show _ * Ideal.logistic _ = _
  rw [hs]

/-! ## From the blocks to the whole table -/

/-- The zero offset of a whole-block rectangle, as the constant function. -/
theorem hz : (![0, 0] : Fin 2 → Nat) = fun _ => 0 := funext fun a => by fin_cases a <;> rfl

/-- The block indices over the ten grid points: the row blocks of the aggregated table and of the output sit at block row t,
    column block 0; the weights and the bias row are their one block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of point t's block of the aggregated table is entry (5000·t + p, k) of the table. -/
theorem agg_block (c : Dev nD) (t : Fin cfg2.N) (p : Fin 5000) (k : Fin 128) (r : Fin 50000) (hr : r.val = t.val * 5000 + p.val) :
    iblk2 (F := Ideal) V c 0 t (ix2 p k : S5000x128.Idx) = V c main_v19 (ix2 r k) := by
  show V c main_v19 (((cfg2.win 0).blk t).view.emb (ix2 p k : S5000x128.Idx)) = V c main_v19 (ix2 r k)
  obtain ⟨e0, e1, -⟩ := idx_facts t
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weights' block at any point is the whole weight table. -/
theorem w_block (c : Dev nD) (t : Fin cfg2.N) (k : Fin 128) (q : Fin 128) :
    iblk2 (F := Ideal) V c 1 t (ix2 k q : S128x128.Idx) = V c main_arg10 (ix2 k q) := by
  show V c main_arg10 (((cfg2.win 1).blk t).view.emb (ix2 k q : S128x128.Idx)) = V c main_arg10 (ix2 k q)
  obtain ⟨-, -, e2, e3, -⟩ := idx_facts t
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The bias row's block at any point is the whole one-row table. -/
theorem b_block (c : Dev nD) (t : Fin cfg2.N) (q : Fin 128) :
    iblk2 (F := Ideal) V c 2 t (ix2 (0 : Fin 1) q : S1x128.Idx) = V c main_v20 (ix2 (0 : Fin 1) q) := by
  show V c main_v20 (((cfg2.win 2).blk t).view.emb (ix2 (0 : Fin 1) q : S1x128.Idx)) = V c main_v20 (ix2 (0 : Fin 1) q)
  obtain ⟨-, -, -, -, e4, e5, -⟩ := idx_facts t
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- One entry of one point's result: if row p of the block is row r of the table A, the second block is W and the third is the
    one-row table B, the payload at (p, q) is the gated affine map of A, W, B at (r, q). -/
theorem point_entry (x0 : Vec Ideal S5000x128 .f32) (x1 : Vec Ideal S128x128 .f32) (x2 : Vec Ideal S1x128 .f32)
    (A : FVec Ideal S50000x128 .f32) (W : FVec Ideal S128x128 .f32) (B : FVec Ideal S1x128 .f32)
    (p : Fin 5000) (q : Fin 128) (r : Fin 50000)
    (h0 : ∀ k : Fin 128, x0 (ix2 p k) = A (ix2 r k)) (h1 : ∀ k : Fin 128, x1 (ix2 k q) = W (ix2 k q))
    (h2 : x2 (ix2 (0 : Fin 1) q) = B (ix2 (0 : Fin 1) q)) :
    k2_pay1 (F := Ideal) x0 x1 x2 (ix2 p q) = Cert.Spec.silu (Cert.Spec.affine A W (Cert.Spec.rowOf B)) (ix2 r q) := by
  rw [payload_entry, Cert.Spec.silu_apply, Cert.Spec.affine_apply, h2]
  simp only [h0, h1]
  rfl

/-- What point t writes back is block t of the gated affine map of the three tables as the region finds them. -/
theorem flushed_eq (c : Dev nD) (t : Fin cfg2.N) :
    (dat2 (F := Ideal) V c).flushed 3 t
      = ((cfg2.win 3).blk t).view.read (Elt Ideal) (Cert.Spec.silu (Cert.Spec.affine (V c main_v19) (V c main_arg10) (Cert.Spec.rowOf (V c main_v20)))) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := by have h : t.val < grid2.N := t.isLt; rw [N_2] at h; exact h
  refine (point_entry (iblk2 V c 0 t) (iblk2 V c 1 t) (iblk2 V c 2 t) (V c main_v19) (V c main_arg10) (V c main_v20) p q
    ⟨t.val * 5000 + p.val, by have := p.isLt; omega⟩ (fun k => agg_block V c t p k _ rfl) (fun k => w_block V c t k q) (b_block V c t q)).trans ?_
  show _ = Cert.Spec.silu (Cert.Spec.affine (V c main_v19) (V c main_arg10) (Cert.Spec.rowOf (V c main_v20))) (((cfg2.win 3).blk t).view.emb (ix2 p q : S5000x128.Idx))
  obtain ⟨-, -, -, -, -, -, e6, e7⟩ := idx_facts t
  refine congrArg _ (funext fun a => Fin.ext ?_)
  match a with
  | ⟨0, _⟩ => show t.val * 5000 + p.val = win2_3.index t (0 : Fin 2) * 5000 + 1 * p.val; omega
  | ⟨1, _⟩ => show q.val = win2_3.index t (1 : Fin 2) * 128 + 1 * q.val; omega

/-- An entry of the output table lies in point t's block iff each coordinate lies in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v21).slice (win2_3.rect t)).set ↔ _
  rw [View.set_slice_whole, Rect.mem_set_unit]
  exact Iff.rfl

/-- Every entry of the output table lies in some point's block: row r in the block of point r / 5000. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have hlt : (i 0).val / 5000 < cfg2.N := by show (i 0).val / 5000 < grid2.N; omega
  refine ⟨⟨(i 0).val / 5000, hlt⟩, flush2_3 _, ?_⟩
  rw [mem_blk]
  obtain ⟨-, -, -, -, -, -, e6, e7⟩ := idx_facts ⟨(i 0).val / 5000, hlt⟩
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val ∧ (i 1).val < win2_3.index ⟨(i 0).val / 5000, hlt⟩ (1 : Fin 2) * 128 + 128
    rw [e7]; omega

theorem final2 (c : Dev nD) :
    (dat2 (F := Ideal) V c).arrAt 3 cfg2.N
      = Cert.Spec.silu (Cert.Spec.affine (V c main_v19) (V c main_arg10) (Cert.Spec.rowOf (V c main_v20))) :=
  (dat2 (F := Ideal) V c).arrAt_eq_of_cover 3 _ (fun t _ => flushed_eq V c t) covered

end Cert.KValue.R2

end
-- ==== Proof.KernelFold.lean ====
import proofs.«102468_j28587302322448_1_alg».proof.Proof.Gen.KernelIdeal.Frame
import proofs.«102468_j28587302322448_1_alg».proof.Proof.Spec
import proofs.«102468_j28587302322448_1_alg».proof.Proof.Region0
import proofs.«102468_j28587302322448_1_alg».proof.Proof.Region1
import proofs.«102468_j28587302322448_1_alg».proof.Proof.Region2
import Idealize.ShloMosaic.Lib.StableHlo.Run
import Idealize.ShloMosaic.Lib.Pipeline.Value
import Idealize.ShloMosaic.Lib.ValueIdx

noncomputable section

/-!
  The kernel program's result as one function of its argument arrays.

  The program's buffers are followed boundary by boundary: a stretch of host operations leaves each buffer it writes at
  that operation's function of its operands and every other buffer as it was; a region leaves its output array at the
  region's whole-array function of its input arrays and every other buffer as it was. Walking the result buffer back
  from the last boundary to the launch gives: the gated affine map of the scatter-added messages, the messages formed
  from the gathered rows of the projected node table. Gathering rows of a projected table is projecting the gathered
  rows, which puts the result in the specification's arrangement.
-/

namespace Cert.KValue.Fold

open Cert.KernelIdeal Cert.KernelIdeal.Gen Idealize.ShloMosaic Idealize.ShloMosaic.TcCoe Idealize.SL.Sem
open Idealize.ShloMosaic.ValueIdx Idealize.ShloMosaic.StableHlo

/-! ## The index columns and the zero table, as the host operations spell them -/

/-- Row 0 of the 2 × E edge table (the destination nodes), as a vector. -/
def rowVec (e : (⟨S2x1000000, .i32⟩ : BufTy).Contents (Elt Ideal)) : (⟨S1000000, .i32⟩ : BufTy).Contents (Elt Ideal) :=
  shapeCast S1000000 (extractStridedSlice S1x1000000 ![0, 0] e slices_S2x1000000_S1x1000000_0_0) shapeCasts_S1x1000000_S1000000

/-- Row 1 of the 2 × E edge table (the source nodes), as a vector. -/
def colVec (e : (⟨S2x1000000, .i32⟩ : BufTy).Contents (Elt Ideal)) : (⟨S1000000, .i32⟩ : BufTy).Contents (Elt Ideal) :=
  shapeCast S1000000 (extractStridedSlice S1x1000000 ![1, 0] e slices_S2x1000000_S1x1000000_1_0) shapeCasts_S1x1000000_S1000000

/-- The destination nodes as an E × 1 column of scatter indices. -/
def rowIdx (e : (⟨S2x1000000, .i32⟩ : BufTy).Contents (Elt Ideal)) : (⟨S1000000x1, .i32⟩ : BufTy).Contents (Elt Ideal) :=
  broadcastInDim S1000000x1 ![0] bcast_S1000000_S1000000x1_0 (rowVec e)

/-- The source nodes, a negative one wrapped by the node count, as an E × 1 column of gather indices. -/
def colIdx (e : (⟨S2x1000000, .i32⟩ : BufTy).Contents (Elt Ideal)) : (⟨S1000000x1, .i32⟩ : BufTy).Contents (Elt Ideal) :=
  broadcastInDim S1000000x1 ![0] bcast_S1000000_S1000000x1_0
    (select (cmpi .slt (colVec e) (broadcastInDim S1000000 ![] bcast_S_S1000000 (constantI S_ 32 0#32)))
      (addi (colVec e) (broadcastInDim S1000000 ![] bcast_S_S1000000 (constantI S_ 32 50000#32))) (colVec e))

/-- The table of zeros the messages are added into. -/
def zeros : (⟨S50000x128, .f32⟩ : BufTy).Contents (Elt Ideal) :=
  broadcastInDim S50000x128 ![] bcast_S_S50000x128 (constant (F := Ideal) S_ .f32 0x00000000#32)

/-! ## A vector laid out as one row, or as one column, and read back -/

/-- A length-128 vector reshaped to a 1 × 128 table has the vector as its single row. -/
theorem rowOf_shapeCast (b : FVec Ideal S128 .f32) : Cert.Spec.rowOf (shapeCast S1x128 b shapeCasts_S128_S1x128) = b := by
  funext j
  obtain ⟨q, rfl⟩ : ∃ q : Fin 128, j = ix1 q := ⟨j 0, eq_ix1 j⟩
  show shapeCast S1x128 b shapeCasts_S128_S1x128 (ix2 (0 : Fin 1) (⟨q.val, q.isLt⟩ : Fin 128)) = b (ix1 q)
  exact shapeCast_apply b shapeCasts_S128_S1x128 _ (ix1 q)
    (by rewrite [Shape.rowMajor_val_one, Shape.rowMajor_val_two]; show q.val = 0 * 128 + q.val; omega)

/-- A length-E vector reshaped to an E × 1 table has the vector as its single column. -/
theorem colOf_shapeCast (s : FVec Ideal S1000000 .f32) : Cert.Spec.colOf (shapeCast S1000000x1 s shapeCasts_S1000000_S1000000x1) = s := by
  funext j
  obtain ⟨p, rfl⟩ : ∃ p : Fin 1000000, j = ix1 p := ⟨j 0, eq_ix1 j⟩
  show shapeCast S1000000x1 s shapeCasts_S1000000_S1000000x1 (ix2 (⟨p.val, p.isLt⟩ : Fin 1000000) (0 : Fin 1)) = s (ix1 p)
  exact shapeCast_apply s shapeCasts_S1000000_S1000000x1 _ (ix1 p)
    (by rewrite [Shape.rowMajor_val_one, Shape.rowMajor_val_two]; show p.val = p.val * 1 + 0; omega)

variable (m : (ℓ : Loc nD τ sig) → Buf (Elt Ideal) ℓ) (ρ : Dev nD → PrngReg) (c : Dev nD)

local macro "stretch0" : tactic => `(tactic| (dsimp only [W1, hostOps0]; after_results))
local macro "stretch1" : tactic => `(tactic| (dsimp only [W3, hostOps1]; after_results))
local macro "stretch2" : tactic => `(tactic| (dsimp only [W5, hostOps2]; after_results))

/-! ## Buffers no item writes between the launch and where they are read -/

theorem arg0_at1 : W1 m ρ c (Proc.devRef .tc main_arg0) = m ((c : Thread nD τ).loc main_arg0) := by stretch0; try rfl
theorem arg8_at1 : W1 m ρ c (Proc.devRef .tc main_arg8) = m ((c : Thread nD τ).loc main_arg8) := by stretch0; try rfl
theorem arg3_at2 : W2 m ρ c (Proc.devRef .tc main_arg3) = m ((c : Thread nD τ).loc main_arg3) := by
  rw [W2_of_ne m ρ c main_arg3 (by decide)]; stretch0; try rfl
theorem arg5_at2 : W2 m ρ c (Proc.devRef .tc main_arg5) = m ((c : Thread nD τ).loc main_arg5) := by
  rw [W2_of_ne m ρ c main_arg5 (by decide)]; stretch0; try rfl
theorem arg7_at2 : W2 m ρ c (Proc.devRef .tc main_arg7) = m ((c : Thread nD τ).loc main_arg7) := by
  rw [W2_of_ne m ρ c main_arg7 (by decide)]; stretch0; try rfl
theorem arg2_at3 : W3 m ρ c (Proc.devRef .tc main_arg2) = m ((c : Thread nD τ).loc main_arg2) := by
  stretch1; rw [W2_of_ne m ρ c main_arg2 (by decide)]; stretch0; try rfl
theorem arg4_at3 : W3 m ρ c (Proc.devRef .tc main_arg4) = m ((c : Thread nD τ).loc main_arg4) := by
  stretch1; rw [W2_of_ne m ρ c main_arg4 (by decide)]; stretch0; try rfl
theorem arg6_at3 : W3 m ρ c (Proc.devRef .tc main_arg6) = m ((c : Thread nD τ).loc main_arg6) := by
  stretch1; rw [W2_of_ne m ρ c main_arg6 (by decide)]; stretch0; try rfl
theorem arg11_at4 : W4 m ρ c (Proc.devRef .tc main_arg11) = m ((c : Thread nD τ).loc main_arg11) := by
  rw [W4_of_ne m ρ c main_arg11 (by decide)]; stretch1; rw [W2_of_ne m ρ c main_arg11 (by decide)]; stretch0; try rfl
theorem arg10_at5 : W5 m ρ c (Proc.devRef .tc main_arg10) = m ((c : Thread nD τ).loc main_arg10) := by
  stretch2; rw [W4_of_ne m ρ c main_arg10 (by decide)]; stretch1; rw [W2_of_ne m ρ c main_arg10 (by decide)]; stretch0; try rfl

/-! ## The buffers the first host stretch writes -/

/-- The first region's bias operand is the first projection's bias, laid out as one row. -/
theorem v4_at1 : W1 m ρ c (Proc.devRef .tc main_v4) = shapeCast S1x128 (m ((c : Thread nD τ).loc main_arg9)) shapeCasts_S128_S1x128 := by
  stretch0; try rfl
/-- The source-node vector, where the gather's index column is made. -/
theorem v3_at2 : W2 m ρ c (Proc.devRef .tc main_v3) = colVec (m ((c : Thread nD τ).loc main_arg1)) := by
  rw [W2_of_ne m ρ c main_v3 (by decide)]; stretch0; try rfl
/-- The destination-node vector, where the scatter's index column is made. -/
theorem v1_at4 : W4 m ρ c (Proc.devRef .tc main_v1) = rowVec (m ((c : Thread nD τ).loc main_arg1)) := by
  rw [W4_of_ne m ρ c main_v1 (by decide)]; stretch1; rw [W2_of_ne m ρ c main_v1 (by decide)]; stretch0; try rfl

/-! ## The projected node table, the gathered rows, the messages, the aggregate -/

/-- After the first region: the node table projected, x·W + b. -/
theorem v5_at2 : W2 m ρ c (Proc.devRef .tc main_v5) = Cert.Spec.affine (m ((c : Thread nD τ).loc main_arg0)) (m ((c : Thread nD τ).loc main_arg8)) (m ((c : Thread nD τ).loc main_arg9)) := by
  refine ((W2_arr m ρ c 3).trans (Cert.KValue.R0.final0 (V1 m ρ) c)).trans ?_
  dsimp only [V1]
  rw [arg0_at1, arg8_at1, v4_at1, rowOf_shapeCast]

/-- After the second host stretch: the projected table's rows gathered at the source nodes. -/
theorem v12_at3 : W3 m ρ c (Proc.devRef .tc main_v12)
    = Host.gather gather_S50000x128_S1000000x1_S1000000x128_1_0_n_n_0_1_1128 (Cert.Spec.affine (m ((c : Thread nD τ).loc main_arg0)) (m ((c : Thread nD τ).loc main_arg8)) (m ((c : Thread nD τ).loc main_arg9))) (colIdx (m ((c : Thread nD τ).loc main_arg1))) := by
  stretch1
  rw [v5_at2, v3_at2]
  try rfl

theorem v13_at3 : W3 m ρ c (Proc.devRef .tc main_v13) = shapeCast S1000000x1 (m ((c : Thread nD τ).loc main_arg3)) shapeCasts_S1000000_S1000000x1 := by
  stretch1; rw [arg3_at2]; rfl
theorem v14_at3 : W3 m ρ c (Proc.devRef .tc main_v14) = shapeCast S1x128 (m ((c : Thread nD τ).loc main_arg5)) shapeCasts_S128_S1x128 := by
  stretch1; rw [arg5_at2]; rfl
theorem v15_at3 : W3 m ρ c (Proc.devRef .tc main_v15) = shapeCast S1x128 (m ((c : Thread nD τ).loc main_arg7)) shapeCasts_S128_S1x128 := by
  stretch1; rw [arg7_at2]; rfl

/-- After the second region: each edge's message. -/
theorem v16_at4 : W4 m ρ c (Proc.devRef .tc main_v16)
    = Cert.Spec.edgeMsg (Host.gather gather_S50000x128_S1000000x1_S1000000x128_1_0_n_n_0_1_1128 (Cert.Spec.affine (m ((c : Thread nD τ).loc main_arg0)) (m ((c : Thread nD τ).loc main_arg8)) (m ((c : Thread nD τ).loc main_arg9))) (colIdx (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 7).trans (Cert.KValue.R1.final1 (V3 m ρ) c)).trans ?_
  dsimp only [V3]
  rw [v12_at3, arg2_at3, v13_at3, arg4_at3, v14_at3, arg6_at3, v15_at3, colOf_shapeCast, rowOf_shapeCast, rowOf_shapeCast]

/-- After the third host stretch: the messages added into their destination nodes' rows. -/
theorem v19_at5 : W5 m ρ c (Proc.devRef .tc main_v19)
    = Host.scatterAdd (F := Ideal) scatter_S50000x128_S1000000x1_S1000000x128_1_0_0_1 zeros (rowIdx (m ((c : Thread nD τ).loc main_arg1)))
        (Cert.Spec.edgeMsg (Host.gather gather_S50000x128_S1000000x1_S1000000x128_1_0_n_n_0_1_1128 (Cert.Spec.affine (m ((c : Thread nD τ).loc main_arg0)) (m ((c : Thread nD τ).loc main_arg8)) (m ((c : Thread nD τ).loc main_arg9))) (colIdx (m ((c : Thread nD τ).loc main_arg1))))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  stretch2
  rw [v1_at4, v16_at4]
  try rfl

theorem v20_at5 : W5 m ρ c (Proc.devRef .tc main_v20) = shapeCast S1x128 (m ((c : Thread nD τ).loc main_arg11)) shapeCasts_S128_S1x128 := by
  stretch2; rw [arg11_at4]; rfl

/-! ## The result -/

/-- The result buffer at the last boundary is the specification of the argument arrays. -/
theorem kernel_value : W6 m ρ c (Proc.devRef .tc main_v21)
    = Cert.Spec.model gather_S50000x128_S1000000x1_S1000000x128_1_0_n_n_0_1_1128 scatter_S50000x128_S1000000x1_S1000000x128_1_0_0_1
        zeros (m ((c : Thread nD τ).loc main_arg0)) (colIdx (m ((c : Thread nD τ).loc main_arg1))) (rowIdx (m ((c : Thread nD τ).loc main_arg1)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine ((W6_arr m ρ c 3).trans (Cert.KValue.R2.final2 (V5 m ρ) c)).trans ?_
  dsimp only [V5]
  rw [v19_at5, arg10_at5, v20_at5, rowOf_shapeCast,
    Cert.Spec.gather_affine gather_S50000x128_S1000000x1_S1000000x128_1_0_n_n_0_1_1128 rfl rfl rfl rfl rfl (by decide)]
  rfl

end Cert.KValue.Fold

end
-- ==== Proof.RefValue.lean ====
import proofs.«102468_j28587302322448_1_alg».proof.Proof.Gen.ReferenceIdeal.Read
import proofs.«102468_j28587302322448_1_alg».proof.Proof.Spec
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe Idealize.SL.Sem Idealize.ShloMosaic.ValueIdx
open scoped BigOperators

/-! The reference, stage by stage, is the layer's specification: three row-affine maps on the edge tables, two gates,
    the edge message as a product, and one more row-affine map and gate on the node table. -/

section Stages

variable (x0 : (⟨S50000x128, .f32⟩ : BufTy).Contents (Elt Ideal)) (x1 : (⟨S2x1000000, .i32⟩ : BufTy).Contents (Elt Ideal)) (x2 : (⟨S1000000x50, .f32⟩ : BufTy).Contents (Elt Ideal)) (x3 : (⟨S1000000, .f32⟩ : BufTy).Contents (Elt Ideal)) (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))

/-- The gate at one value: v · (1 / (1 + e^(-v))), with the ones given as the single-precision word of 1, is v · σ(v). -/
theorem gate_point (v : Ideal .f32) :
    FloatOps.mulf (F := Ideal) (φ := .f32) v
        (FloatOps.hostDivf (FloatOps.ofBits .f32 0x3F800000#32)
          (FloatOps.addf (FloatOps.ofBits .f32 0x3F800000#32) (FloatOps.hostUnary .exp (FloatOps.hostNegf v))))
      = v * Ideal.logistic v := by
  simp only [Ideal.ofBits_def, Cert.LibGS.one_f32]
  rfl

/-- The left operand of contraction 4 at entry (p, q), term k, is read at (p, k). -/
theorem lidx_v4_eq (p : Fin 1000000) (q : Fin 128) (k : Fin 50) : lidx_main_v4 (ix2 p q) k = ix2 p k :=
  funext fun a => Fin.ext (by match a with | ⟨0, _⟩ => rfl | ⟨1, _⟩ => rfl)

/-- The right operand of contraction 4 at entry (p, q), term k, is read at (k, q). -/
theorem ridx_v4_eq (p : Fin 1000000) (q : Fin 128) (k : Fin 50) : ridx_main_v4 (ix2 p q) k = ix2 k q :=
  funext fun a => Fin.ext (by match a with | ⟨0, _⟩ => rfl | ⟨1, _⟩ => rfl)

/-- The bias broadcast along the rows (stages 5, 6) is read at entry (p, q) at q. -/
theorem idx_v6_eq (p : Fin 1000000) (q : Fin 128) : idx_main_v5 (idx_main_v6 (ix2 p q)) = ix1 q :=
  funext fun a => Fin.ext (by match a with | ⟨0, _⟩ => rfl)

/-- Stage 7 is the row-affine map of the radial features: entry (p, q) is the sum over k of X(p, k)·W(k, q), plus b(q). -/
theorem stage_v7 : val_main_v7 (F := Ideal) x2 x4 x5 = Cert.Spec.affine x2 x4 x5 := by
  funext i
  obtain ⟨p, q, rfl⟩ : ∃ (p : Fin 1000000) (q : Fin 128), i = ix2 p q := ⟨i 0, i 1, eq_ix2 i⟩
  rw [Cert.Spec.affine_apply, val_main_v7_apply, val_main_v4_apply, val_main_v6_apply, val_main_v5_apply, Ideal.addf_def]
  simp only [lidx_v4_eq, ridx_v4_eq, idx_v6_eq]

/-- Stage 8 is the gate v·σ(v) of the first filter layer, the reference spelling σ(v) as 1 / (1 + e^(-v)). -/
theorem stage_v8 : val_main_v8 (F := Ideal) x2 x4 x5 = Cert.Spec.silu (val_main_v7 (F := Ideal) x2 x4 x5) := by
  funext i
  rw [Cert.Spec.silu_apply, val_main_v8_apply, val_main_call0_v5_apply, val_main_call0_v4_apply, val_main_call0_cst_0_apply,
    val_main_call0_v3_apply, val_main_call0_v2_apply, val_main_call0_cst_apply, val_main_call0_v1_apply, val_main_call0_v0_apply]
  exact gate_point _

/-- The left operand of contraction 9 at entry (p, q), term k, is read at (p, k). -/
theorem lidx_v9_eq (p : Fin 1000000) (q : Fin 128) (k : Fin 128) : lidx_main_v9 (ix2 p q) k = ix2 p k :=
  funext fun a => Fin.ext (by match a with | ⟨0, _⟩ => rfl | ⟨1, _⟩ => rfl)

/-- The right operand of contraction 9 at entry (p, q), term k, is read at (k, q). -/
theorem ridx_v9_eq (p : Fin 1000000) (q : Fin 128) (k : Fin 128) : ridx_main_v9 (ix2 p q) k = ix2 k q :=
  funext fun a => Fin.ext (by match a with | ⟨0, _⟩ => rfl | ⟨1, _⟩ => rfl)

/-- The bias broadcast along the rows (stages 10, 11) is read at entry (p, q) at q. -/
theorem idx_v11_eq (p : Fin 1000000) (q : Fin 128) : idx_main_v10 (idx_main_v11 (ix2 p q)) = ix1 q :=
  funext fun a => Fin.ext (by match a with | ⟨0, _⟩ => rfl)

/-- Stage 12 is the row-affine map of the gated first filter layer: entry (p, q) is the sum over k of X(p, k)·W(k, q), plus b(q). -/
theorem stage_v12 : val_main_v12 (F := Ideal) x2 x4 x5 x6 x7 = Cert.Spec.affine (val_main_v8 (F := Ideal) x2 x4 x5) x6 x7 := by
  funext i
  obtain ⟨p, q, rfl⟩ : ∃ (p : Fin 1000000) (q : Fin 128), i = ix2 p q := ⟨i 0, i 1, eq_ix2 i⟩
  rw [Cert.Spec.affine_apply, val_main_v12_apply, val_main_v9_apply, val_main_v11_apply, val_main_v10_apply, Ideal.addf_def]
  simp only [lidx_v9_eq, ridx_v9_eq, idx_v11_eq]

/-- The left operand of contraction 23 at entry (p, q), term k, is read at (p, k). -/
theorem lidx_v23_eq (p : Fin 1000000) (q : Fin 128) (k : Fin 128) : lidx_main_v23 (ix2 p q) k = ix2 p k :=
  funext fun a => Fin.ext (by match a with | ⟨0, _⟩ => rfl | ⟨1, _⟩ => rfl)

/-- The right operand of contraction 23 at entry (p, q), term k, is read at (k, q). -/
theorem ridx_v23_eq (p : Fin 1000000) (q : Fin 128) (k : Fin 128) : ridx_main_v23 (ix2 p q) k = ix2 k q :=
  funext fun a => Fin.ext (by match a with | ⟨0, _⟩ => rfl | ⟨1, _⟩ => rfl)

/-- The bias broadcast along the rows (stages 24, 25) is read at entry (p, q) at q. -/
theorem idx_v25_eq (p : Fin 1000000) (q : Fin 128) : idx_main_v24 (idx_main_v25 (ix2 p q)) = ix1 q :=
  funext fun a => Fin.ext (by match a with | ⟨0, _⟩ => rfl)

/-- Stage 26 is the row-affine map of the gathered source rows: entry (p, q) is the sum over k of X(p, k)·W(k, q), plus b(q). -/
theorem stage_v26 : val_main_v26 (F := Ideal) x0 x1 x8 x9 = Cert.Spec.affine (val_main_v22 (F := Ideal) x0 x1) x8 x9 := by
  funext i
  obtain ⟨p, q, rfl⟩ : ∃ (p : Fin 1000000) (q : Fin 128), i = ix2 p q := ⟨i 0, i 1, eq_ix2 i⟩
  rw [Cert.Spec.affine_apply, val_main_v26_apply, val_main_v23_apply, val_main_v25_apply, val_main_v24_apply, Ideal.addf_def]
  simp only [lidx_v23_eq, ridx_v23_eq, idx_v25_eq]

/-- The cutoff broadcast along the columns (stages 13, 14) is read at entry (p, q) at p. -/
theorem idx_v14_eq (p : Fin 1000000) (q : Fin 128) : idx_main_v13 (idx_main_v14 (ix2 p q)) = ix1 p :=
  funext fun a => Fin.ext (by match a with | ⟨0, _⟩ => rfl)

/-- Stage 27 is the edge message: the projected source row times the filter, the filter being the second affine map of the
    gated first one, scaled by the edge's cutoff. -/
theorem stage_v27 : val_main_v27 (F := Ideal) x0 x1 x2 x3 x4 x5 x6 x7 x8 x9
    = Cert.Spec.edgeMsg (val_main_v26 (F := Ideal) x0 x1 x8 x9) x2 x3 x4 x5 x6 x7 := by
  funext i
  obtain ⟨p, q, rfl⟩ : ∃ (p : Fin 1000000) (q : Fin 128), i = ix2 p q := ⟨i 0, i 1, eq_ix2 i⟩
  rw [Cert.Spec.edgeMsg_apply, val_main_v27_apply, val_main_v15_apply, val_main_v14_apply, val_main_v13_apply, stage_v12, stage_v8, stage_v7]
  simp only [Ideal.mulf_def, idx_v14_eq]

/-- The left operand of contraction 31 at entry (p, q), term k, is read at (p, k). -/
theorem lidx_v31_eq (p : Fin 50000) (q : Fin 128) (k : Fin 128) : lidx_main_v31 (ix2 p q) k = ix2 p k :=
  funext fun a => Fin.ext (by match a with | ⟨0, _⟩ => rfl | ⟨1, _⟩ => rfl)

/-- The right operand of contraction 31 at entry (p, q), term k, is read at (k, q). -/
theorem ridx_v31_eq (p : Fin 50000) (q : Fin 128) (k : Fin 128) : ridx_main_v31 (ix2 p q) k = ix2 k q :=
  funext fun a => Fin.ext (by match a with | ⟨0, _⟩ => rfl | ⟨1, _⟩ => rfl)

/-- The bias broadcast along the rows (stages 32, 33) is read at entry (p, q) at q. -/
theorem idx_v33_eq (p : Fin 50000) (q : Fin 128) : idx_main_v32 (idx_main_v33 (ix2 p q)) = ix1 q :=
  funext fun a => Fin.ext (by match a with | ⟨0, _⟩ => rfl)

/-- Stage 34 is the row-affine map of the summed messages: entry (p, q) is the sum over k of X(p, k)·W(k, q), plus b(q). -/
theorem stage_v34 : val_main_v34 (F := Ideal) x0 x1 x2 x3 x4 x5 x6 x7 x8 x9 x10 x11 = Cert.Spec.affine (val_main_v30 (F := Ideal) x0 x1 x2 x3 x4 x5 x6 x7 x8 x9) x10 x11 := by
  funext i
  obtain ⟨p, q, rfl⟩ : ∃ (p : Fin 50000) (q : Fin 128), i = ix2 p q := ⟨i 0, i 1, eq_ix2 i⟩
  rw [Cert.Spec.affine_apply, val_main_v34_apply, val_main_v31_apply, val_main_v33_apply, val_main_v32_apply, Ideal.addf_def]
  simp only [lidx_v31_eq, ridx_v31_eq, idx_v33_eq]

/-- Stage 35 is the gate v·σ(v) of the node table's affine map, the reference spelling σ(v) as 1 / (1 + e^(-v)). -/
theorem stage_v35 : val_main_v35 (F := Ideal) x0 x1 x2 x3 x4 x5 x6 x7 x8 x9 x10 x11 = Cert.Spec.silu (val_main_v34 (F := Ideal) x0 x1 x2 x3 x4 x5 x6 x7 x8 x9 x10 x11) := by
  funext i
  rw [Cert.Spec.silu_apply, val_main_v35_apply, val_main_call1_v5_apply, val_main_call1_v4_apply, val_main_call1_cst_0_apply,
    val_main_call1_v3_apply, val_main_call1_v2_apply, val_main_call1_cst_apply, val_main_call1_v1_apply, val_main_call1_v0_apply]
  exact gate_point _

end Stages

theorem ref_value (x0 : (⟨S50000x128, .f32⟩ : BufTy).Contents (Elt Ideal)) (x1 : (⟨S2x1000000, .i32⟩ : BufTy).Contents (Elt Ideal)) (x2 : (⟨S1000000x50, .f32⟩ : BufTy).Contents (Elt Ideal)) (x3 : (⟨S1000000, .f32⟩ : BufTy).Contents (Elt Ideal)) (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v35 (F := Ideal) x0 x1 x2 x3 x4 x5 x6 x7 x8 x9 x10 x11
      = Cert.Spec.model gather_S50000x128_S1000000x1_S1000000x128_1_0_n_n_0_1_1128 scatter_S50000x128_S1000000x1_S1000000x128_1_0_0_1
          (val_main_v28 (F := Ideal)) x0 (val_main_v21 (F := Ideal) x1) (val_main_v29 (F := Ideal) x1) x2 x3 x4 x5 x6 x7 x8 x9 x10 x11 := by
  rw [stage_v35, stage_v34]
  unfold Cert.Spec.model val_main_v30
  rw [stage_v27, stage_v26]
  unfold val_main_v22
  with_reducible rfl

end Cert.RefValue

end
-- ==== Proof.lean ====
/-
  The certificate: a message-passing layer computed by three tiled regions among host operations, against its
  reference.

  Both programs compute, at the extended reals, the gated affine map of the scatter-added edge messages, an edge's message
  being its source node's projected row times the edge's filter. The kernel program projects every node once and then
  gathers the projected rows; the reference gathers the rows and projects each edge's copy. Gathering rows commutes with a
  row-wise affine map, so the two are the same function of the arguments, entry by entry, with no condition on the
  inputs. The three frames are the generated ones (the reference's frame is its run with the result dropped), and the
  idealized kernel is the kernel's own text read at the extended reals, so nothing is owed for it.
-/
import proofs.«102468_j28587302322448_1_alg».proof.Defs
import proofs.«102468_j28587302322448_1_alg».proof.Proof.Gen.Kernel
import proofs.«102468_j28587302322448_1_alg».proof.Proof.Gen.Kernel.Skeleton
import proofs.«102468_j28587302322448_1_alg».proof.Proof.Gen.Kernel.Launch
import proofs.«102468_j28587302322448_1_alg».proof.Proof.Gen.Kernel.Points
import proofs.«102468_j28587302322448_1_alg».proof.Proof.Gen.Kernel.Frame
import proofs.«102468_j28587302322448_1_alg».proof.Proof.Gen.KernelIdeal
import proofs.«102468_j28587302322448_1_alg».proof.Proof.Gen.KernelIdeal.Skeleton
import proofs.«102468_j28587302322448_1_alg».proof.Proof.Gen.KernelIdeal.Launch
import proofs.«102468_j28587302322448_1_alg».proof.Proof.Gen.KernelIdeal.Points
import proofs.«102468_j28587302322448_1_alg».proof.Proof.Gen.KernelIdeal.Frame
import proofs.«102468_j28587302322448_1_alg».proof.Proof.Gen.ReferenceIdeal
import proofs.«102468_j28587302322448_1_alg».proof.Proof.Gen.ReferenceIdeal.Run
import proofs.«102468_j28587302322448_1_alg».proof.Proof.Gen.ReferenceIdeal.Read
import proofs.«102468_j28587302322448_1_alg».proof.Proof.Gen.Pre_finite_inputs
import proofs.«102468_j28587302322448_1_alg».proof.Proof.KernelRun
import proofs.«102468_j28587302322448_1_alg».proof.Proof.KernelFold
import proofs.«102468_j28587302322448_1_alg».proof.Proof.RefValue
import Idealize.ShloMosaic.Adequacy
import Idealize.ShloMosaic.Init

noncomputable section

namespace Cert.Proof

open Idealize.ShloMosaic Idealize.SL.Sem

/-- The kernel program terminates without a fault and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference terminates without a fault and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer's value of those arguments: the kernel
    program by its run and the walk of its result buffer back to the launch, the reference by its run read stage by
    stage; the two spell the index columns, the zero table and the gather and scatter shapes alike. -/
theorem algebraic : Cert.algebraic_KernelIdeal_ReferenceIdeal := by
  intro m ρ m' ρ' _ hagree
  refine ⟨fun c => Cert.KernelIdeal.Gen.W6 m ρ c (Proc.devRef .tc Cert.KernelIdeal.main_v21),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v35_eq, Cert.RefValue.ref_value, h0, h1, h2, h3, h4, h5, h6, h7, h8, h9, h10, h11]
  exact (Cert.KValue.Fold.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
